-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S256x8x512 : Shape := ⟨3, ![256, 8, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S256x8x512 : S_.BroadcastsInDim S256x8x512 (![] : Fin 0 → Fin S256x8x512.rank)
  reducesTo_S256x8x512_S_d0_1_2 : S256x8x512.ReducesTo [0, 1, 2] S_

variable [Facts]

def fn {F : FTy → Type} [FloatOps F] (main_arg0 : FVec F S8192x512 .f32) (main_arg1 : FVec F S8192x512 .f32) (main_arg2 : FVec F S256x8x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S256x8x512 .f32 := Host.absf main_arg2
  let main_cst_2 : FVec F S_ .f32 := constant S_ .f32 0x7F800000#32
  let main_v10 : FVec F S256x8x512 .f32 := broadcastInDim S256x8x512 ![] bcast_S_S256x8x512 main_cst_2
  let main_v11 : IVec S256x8x512 1 := cmpf .olt main_v9 main_v10
  let main_c_3 : IVec S_ 1 := constantI S_ 1 1#1
  let main_v12 : IVec S_ 1 := (fun x v => Host.reduce IntOp.andi x v reducesTo_S256x8x512_S_d0_1_2 h_S_) main_v11 main_c_3
  let main_v13 : IVec S_ 1 := andi main_v8 main_v12
  main_v13
-- ==== Kernel.lean ====
abbrev S8192x512 : Shape := ⟨2, ![8192, 512]⟩
abbrev S256x8x512 : Shape := ⟨3, ![256, 8, 512]⟩
abbrev S8x256x512 : Shape := ⟨3, ![8, 256, 512]⟩
abbrev S2048x512 : Shape := ⟨2, ![2048, 512]⟩
abbrev S1x8192x512 : Shape := ⟨3, ![1, 8192, 512]⟩
abbrev S2x8192x512 : Shape := ⟨3, ![2, 8192, 512]⟩
abbrev S2x8192x256 : Shape := ⟨3, ![2, 8192, 256]⟩
abbrev S1x512x512 : Shape := ⟨3, ![1, 512, 512]⟩
abbrev S1x512x256 : Shape := ⟨3, ![1, 512, 256]⟩
abbrev S512x512 : Shape := ⟨2, ![512, 512]⟩
abbrev S512 : Shape := ⟨1, ![512]⟩
abbrev S2048 : Shape := ⟨1, ![2048]⟩
abbrev S512x2048 : Shape := ⟨2, ![512, 2048]⟩
abbrev S512x1 : Shape := ⟨2, ![512, 1]⟩
abbrev S1x2048 : Shape := ⟨2, ![1, 2048]⟩
abbrev S512x8x256 : Shape := ⟨3, ![512, 8, 256]⟩
abbrev S512x256 : Shape := ⟨2, ![512, 256]⟩
abbrev S1x8192x256 : Shape := ⟨3, ![1, 8192, 256]⟩
abbrev S8192x256 : Shape := ⟨2, ![8192, 256]⟩

abbrev nBuf : Space → Nat
  | .hbm => 13
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S256x8x512, .f32⟩
  | .hbm, ⟨3, _⟩ => ⟨S8x256x512, .f32⟩
  | .hbm, ⟨4, _⟩ => ⟨S2048x512, .f32⟩
  | .hbm, ⟨5, _⟩ => ⟨S1x8192x512, .f32⟩
  | .hbm, ⟨6, _⟩ => ⟨S1x8192x512, .f32⟩
  | .hbm, ⟨7, _⟩ => ⟨S2x8192x512, .f32⟩
  | .hbm, ⟨8, _⟩ => ⟨S2x8192x256, .f32⟩
  | .hbm, ⟨9, _⟩ => ⟨S1x8192x256, .f32⟩
  | .hbm, ⟨10, _⟩ => ⟨S8192x256, .f32⟩
  | .hbm, ⟨11, _⟩ => ⟨S1x8192x256, .f32⟩
  | .hbm, ⟨12, _⟩ => ⟨S8192x256, .f32⟩
  | .local _ .vmem, ⟨0, _⟩ => ⟨S1x512x512, .f32⟩
  | .local _ .vmem, ⟨1, _⟩ => ⟨S1x512x512, .f32⟩
  | .local _ .vmem, ⟨2, _⟩ => ⟨S2048x512, .f32⟩
  | .local _ .vmem, ⟨3, _⟩ => ⟨S1x512x256, .f32⟩
  | .local _ .vmem, ⟨4, _⟩ => ⟨S1x512x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S256x8x512_S8x256x512_1_0_2 : S256x8x512.Transposes [1, 0, 2] S8x256x512
  shapeCasts_S8x256x512_S2048x512 : S8x256x512.ShapeCasts S2048x512
  bcast_S8192x512_S1x8192x512_1_2 : S8192x512.BroadcastsInDim S1x8192x512 (![1, 2] : Fin 2 → Fin S1x8192x512.rank)
  concatenates_S1x8192x512_S1x8192x512_S2x8192x512_d0 : Shape.Concatenates [S1x8192x512, S1x8192x512] S2x8192x512 0
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  reduces_S512x512_S512 : S512x512.Reduces [1] S512
  reduces_S2048x512_S2048 : S2048x512.Reduces [1] S2048
  shapeCasts_S512_S512x1 : S512.ShapeCasts S512x1
  broadcasts_S512x1_S512x2048 : S512x1.Broadcasts S512x2048
  shapeCasts_S2048_S1x2048 : S2048.ShapeCasts S1x2048
  broadcasts_S1x2048_S512x2048 : S1x2048.Broadcasts S512x2048
  shapeCasts_S512x2048_S512x8x256 : S512x2048.ShapeCasts S512x8x256
  reduces_S512x8x256_S512x256 : S512x8x256.Reduces [1] S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  slices_S2x8192x256_S1x8192x256_0_0_0 : S2x8192x256.Slices ![0, 0, 0] S1x8192x256
  shapeCasts_S1x8192x256_S8192x256 : S1x8192x256.ShapeCasts S8192x256
  slices_S2x8192x256_S1x8192x256_1_0_0 : S2x8192x256.Slices ![1, 0, 0] S1x8192x256
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S2x8192x512.size a
  hwx0_0 : ∀ i : grid0.Coords, EltTy.bits .f32 = 32 ∨ (Rect.block (s := S2x8192x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .f32 = 32 ∨ (Rect.block (s := S2048x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x256.size a ≤ S2x8192x256.size a
  hwx0_2 : ∀ i : grid0.Coords, EltTy.bits .f32 = 32 ∨ (Rect.block (s := S2x8192x256) S1x512x256.size (cc0_transform_2 i) (hinb0_2 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v4) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S256x8x512 : Shape := ⟨3, ![256, 8, 512]⟩
abbrev S2048x512 : Shape := ⟨2, ![2048, 512]⟩
abbrev S_ : Shape := ⟨0, ![]⟩
abbrev S8192 : Shape := ⟨1, ![8192]⟩
abbrev S8192x1 : Shape := ⟨2, ![8192, 1]⟩
abbrev S2048 : Shape := ⟨1, ![2048]⟩
abbrev S512x2048 : Shape := ⟨2, ![512, 2048]⟩
abbrev S8192x2048 : Shape := ⟨2, ![8192, 2048]⟩
abbrev S1x2048 : Shape := ⟨2, ![1, 2048]⟩
abbrev S8192x256x8 : Shape := ⟨3, ![8192, 256, 8]⟩
abbrev S8192x256 : Shape := ⟨2, ![8192, 256]⟩

abbrev nBuf : Space → Nat
  | .hbm => 75
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S256x8x512, .f32⟩
  | .hbm, ⟨3, _⟩ => ⟨S2048x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S2048x512, .f32⟩
  | .hbm, ⟨9, _⟩ => ⟨S_, .f32⟩
  | .hbm, ⟨10, _⟩ => ⟨S2048, .f32⟩
  | .hbm, ⟨11, _⟩ => ⟨S512x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x256x8, .f32⟩
  | .hbm, ⟨27, _⟩ => ⟨S_, .f32⟩
  | .hbm, ⟨28, _⟩ => ⟨S8192x256, .f32⟩
  | .hbm, ⟨29, _⟩ => ⟨S_, .f32⟩
  | .hbm, ⟨30, _⟩ => ⟨S8192x256, .f32⟩
  | .hbm, ⟨31, _⟩ => ⟨S_, .f32⟩
  | .hbm, ⟨32, _⟩ => ⟨S8192x256, .f32⟩
  | .hbm, ⟨33, _⟩ => ⟨S8192x256, .f32⟩
  | .hbm, ⟨34, _⟩ => ⟨S_, .f32⟩
  | .hbm, ⟨35, _⟩ => ⟨S8192x256, .f32⟩
  | .hbm, ⟨36, _⟩ => ⟨S8192x256, .f32⟩
  | .hbm, ⟨37, _⟩ => ⟨S8192x256, .f32⟩
  | .hbm, ⟨38, _⟩ => ⟨S8192x256, .f32⟩
  | .hbm, ⟨39, _⟩ => ⟨S2048x512, .f32⟩
  | .hbm, ⟨40, _⟩ => ⟨S8192x512, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S2048x512, .f32⟩
  | .hbm, ⟨45, _⟩ => ⟨S_, .f32⟩
  | .hbm, ⟨46, _⟩ => ⟨S2048, .f32⟩
  | .hbm, ⟨47, _⟩ => ⟨S512x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S1x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x256x8, .f32⟩
  | .hbm, ⟨63, _⟩ => ⟨S_, .f32⟩
  | .hbm, ⟨64, _⟩ => ⟨S8192x256, .f32⟩
  | .hbm, ⟨65, _⟩ => ⟨S_, .f32⟩
  | .hbm, ⟨66, _⟩ => ⟨S8192x256, .f32⟩
  | .hbm, ⟨67, _⟩ => ⟨S_, .f32⟩
  | .hbm, ⟨68, _⟩ => ⟨S8192x256, .f32⟩
  | .hbm, ⟨69, _⟩ => ⟨S8192x256, .f32⟩
  | .hbm, ⟨70, _⟩ => ⟨S_, .f32⟩
  | .hbm, ⟨71, _⟩ => ⟨S8192x256, .f32⟩
  | .hbm, ⟨72, _⟩ => ⟨S8192x256, .f32⟩
  | .hbm, ⟨73, _⟩ => ⟨S8192x256, .f32⟩
  | .hbm, ⟨74, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_10 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_11 : Ref sig .tc := ⟨.hbm, 63, rfl⟩
abbrev main_v48 : Ref sig .tc := ⟨.hbm, 64, rfl⟩
abbrev main_cst_12 : Ref sig .tc := ⟨.hbm, 65, rfl⟩
abbrev main_v49 : Ref sig .tc := ⟨.hbm, 66, rfl⟩
abbrev main_cst_13 : Ref sig .tc := ⟨.hbm, 67, rfl⟩
abbrev main_v50 : Ref sig .tc := ⟨.hbm, 68, rfl⟩
abbrev main_v51 : Ref sig .tc := ⟨.hbm, 69, rfl⟩
abbrev main_cst_14 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]

class Facts₀ : Prop where
  shapeCasts_S256x8x512_S2048x512 : S256x8x512.ShapeCasts S2048x512
  reducesTo_S8192x512_S8192_d1 : S8192x512.ReducesTo [1] S8192
  h_S_ : 0 < S_.numel
  bcast_S8192_S8192x1_0 : S8192.BroadcastsInDim S8192x1 (![0] : Fin 1 → Fin S8192x1.rank)
  reducesTo_S2048x512_S2048_d1 : S2048x512.ReducesTo [1] S2048
  transposes_S2048x512_S512x2048_1_0 : S2048x512.Transposes [1, 0] S512x2048
  bcast_S_S8192x2048 : S_.BroadcastsInDim S8192x2048 (![] : Fin 0 → Fin S8192x2048.rank)
  bcast_S8192x1_S8192x2048_0_1 : S8192x1.BroadcastsInDim S8192x2048 (![0, 1] : Fin 2 → Fin S8192x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  shapeCasts_S8192x2048_S8192x256x8 : S8192x2048.ShapeCasts S8192x256x8
  reducesTo_S8192x256x8_S8192x256_d2 : S8192x256x8.ReducesTo [2] S8192x256
  bcast_S_S8192x256 : S_.BroadcastsInDim S8192x256 (![] : Fin 0 → Fin S8192x256.rank)
  dot_S8192x512_S512x2048_S8192x2048_1_0_0_1_n_n_wf : DotDims.WF S8192x512 S512x2048 S8192x2048 [1] [0] [0] [1] [] []

variable [Facts₀]

def dot_S8192x512_S512x2048_S8192x2048_1_0_0_1_n_n : DotDims S8192x512 S512x2048 S8192x2048 where
  lhsContracting := [1]
  rhsContracting := [0]
  lhsNonContracting := [0]
  rhsNonContracting := [1]
  lhsBatch := []
  rhsBatch := []
  wf := dot_S8192x512_S512x2048_S8192x2048_1_0_0_1_n_n_wf

class Facts : Prop extends Facts₀ where

variable [Facts]
-- ==== Proof.Spec.lean ====
/-
  The function both programs compute, written once over the extended reals.

  For a sample row `x` (512 entries) and the eight centre rows `c_0 … c_7` of one class, each of 512 entries:

    gauss x c = exp( −( (‖x‖² − 2·⟨x, c⟩) + ‖c‖² ) / 2 )          (a Gaussian of the squared distance, expanded)
    cell x c_• = S / ((S + 8) − M·8),   S = Σ_j gauss x c_j,   M = max_j gauss x c_j   (the maximum taken from −∞)

  and the result array, of 8192 samples by 256 classes, holds at (b, k) the `cell` of sample row `b` and the eight
  centre rows `centres[k, 0..7, :]`. The constants 2, 8 and −∞ stay the float words both programs print; no law about
  their values is needed, since both sides apply the same operations to them in the same places.
-/
import Idealize.ShloMosaic.PureOps.Ideal
import Idealize.ShloMosaic.PureOps.Ideal.Laws
import Idealize.ShloMosaic.Lib.ValueIdx

noncomputable section

open scoped BigOperators

namespace Cert.Rbf

open Idealize.ShloMosaic Idealize.ShloMosaic.ValueIdx

/-- The float word of 2.0, read as an extended real. -/
abbrev two : EReal := Ideal.ofBits .f32 0x40000000#32
/-- The float word of 8.0 (the number of centres per class), read as an extended real. -/
abbrev eight : EReal := Ideal.ofBits .f32 0x41000000#32
/-- The float word of −∞, from which the maximum over a class's centres starts. -/
abbrev negInf : EReal := Ideal.ofBits .f32 0xFF800000#32

/-- The squared Euclidean norm of a row of 512 entries. -/
def sqNorm (v : Fin 512 → EReal) : EReal := ∑ d, v d * v d

/-- The inner product of two rows of 512 entries. -/
def inner (u v : Fin 512 → EReal) : EReal := ∑ d, u d * v d

/-- The Gaussian of the squared distance between a sample row and a centre row, the distance in its expanded form
    `(‖x‖² − 2⟨x, c⟩) + ‖c‖²`, grouped as both programs group it. -/
def gauss (xr cr : Fin 512 → EReal) : EReal :=
  Ideal.exp (Ideal.div (-((sqNorm xr - two * inner xr cr) + sqNorm cr)) two)

/-- One entry of the result: from the eight Gaussians of a class, their sum over (their sum plus 8 minus 8 times
    their maximum). -/
def cell (xr : Fin 512 → EReal) (cr : Fin 8 → Fin 512 → EReal) : EReal :=
  Ideal.div (∑ j, gauss xr (cr j))
    (((∑ j, gauss xr (cr j)) + eight) - ((Finset.univ : Finset (Fin 8)).fold max negInf fun j => gauss xr (cr j)) * eight)

/-- The whole result for one batch of samples: entry (b, k) is the `cell` of sample row `b` and class `k`'s eight
    centre rows. -/
def logits (x : (⟨2, ![8192, 512]⟩ : Shape).Idx → EReal) (cen : (⟨3, ![256, 8, 512]⟩ : Shape).Idx → EReal) :
    (⟨2, ![8192, 256]⟩ : Shape).Idx → EReal :=
  fun i => cell (fun d => x (ix2 (i 0) d)) (fun j d => cen (ix3 (i 1) j d))

end Cert.Rbf

end
-- ==== Proof.HostIn.lean ====
/-
  What the kernel's two input arrays hold when the region is entered, read at an index.

  Before the region the program stacks the two sample batches along a new leading axis, so the stacked array holds
  batch `s` at (s, r, d); and it re-lays the centre table class-minor: the [256, 8, 512] table is transposed to
  [8, 256, 512] and flattened, so row j·256 + k of the flat [2048, 512] table is centre j of class k.
-/
import proofs.«150862_j85272280695307_1_alg».proof.Proof.Spec
import proofs.«150862_j85272280695307_1_alg».proof.Proof.Gen.KernelIdeal.Frame
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.Rbf.Kernel

open Cert.KernelIdeal Cert.KernelIdeal.Gen

variable (m : (ℓ : Loc nD τ sig) → Buf (Elt Ideal) ℓ)

/-- The first batch of samples, as launched. -/
abbrev xs (c : Dev nD) : S8192x512.Idx → EReal := m ((c : Thread nD τ).loc main_arg0)
/-- The second batch of samples, as launched. -/
abbrev ys (c : Dev nD) : S8192x512.Idx → EReal := m ((c : Thread nD τ).loc main_arg1)
/-- The centre table, as launched. -/
abbrev cen (c : Dev nD) : S256x8x512.Idx → EReal := m ((c : Thread nD τ).loc main_arg2)

/-- Batch `s` of the stacked samples: the first batch for s = 0, the second otherwise. -/
def batch (c : Dev nD) (s : Nat) : S8192x512.Idx → EReal := if s = 0 then xs m c else ys m c

/-- The stacked array is the concatenation, along the new leading axis, of the two batches each given a unit
    leading axis. -/
theorem stackedIn_eq (c : Dev nD) : (V m c main_v4 : S2x8192x512.Idx → EReal)
    = concatenate S2x8192x512 0 [⟨S1x8192x512, broadcastInDim S1x8192x512 ![1, 2] Facts₀.bcast_S8192x512_S1x8192x512_1_2 (xs m c)⟩,
        ⟨S1x8192x512, broadcastInDim S1x8192x512 ![1, 2] Facts₀.bcast_S8192x512_S1x8192x512_1_2 (ys m c)⟩] Facts₀.concatenates_S1x8192x512_S1x8192x512_S2x8192x512_d0 := by
  show StableHlo.after hostOps0 (fun b => m (c, b)) (Proc.devRef .tc main_v4) = _
  after_results

/-- The flat centre table is the reshape of the transposed table. -/
theorem table_eq (c : Dev nD) : (V m c main_v1 : S2048x512.Idx → EReal)
    = shapeCast S2048x512 (transpose S8x256x512 [1, 0, 2] (cen m c) Facts₀.transposes_S256x8x512_S8x256x512_1_0_2) Facts₀.shapeCasts_S8x256x512_S2048x512 := by
  show StableHlo.after hostOps0 (fun b => m (c, b)) (Proc.devRef .tc main_v1) = _
  after_results
  rfl

/-- The stacked array at (s, r, d) is batch `s` at (r, d). -/
theorem stackedIn_apply (c : Dev nD) (s : Fin 2) (r : Fin 8192) (d : Fin 512) :
    (V m c main_v4 : S2x8192x512.Idx → EReal) (ix3 s r d) = batch m c s.val (ix2 r d) := by
  rw [stackedIn_eq]
  have hs : s.val < 2 := s.isLt
  by_cases h0 : s.val = 0
  · refine (concatenate_pair_apply_left (t := S2x8192x512) (s₁ := S1x8192x512) (s₂ := S1x8192x512) (0 : Fin 3) _ _ _ (ix3 s r d) rfl
      (ix3 (⟨0, Nat.one_pos⟩ : Fin 1) r d)
      (fun b => by match b with | ⟨0, _⟩ => exact h0.symm | ⟨1, _⟩ => rfl | ⟨2, _⟩ => rfl)).trans ?_
    refine (broadcastInDim_apply (s := S8192x512) (t := S1x8192x512) ![1, 2] Facts₀.bcast_S8192x512_S1x8192x512_1_2 (xs m c)
      (ix3 (⟨0, Nat.one_pos⟩ : Fin 1) r d) (ix2 r d) (fun a => by match a with | ⟨0, _⟩ => rfl | ⟨1, _⟩ => rfl)).trans ?_
    unfold batch; rw [if_pos h0]
  · refine (concatenate_pair_apply_right (t := S2x8192x512) (s₁ := S1x8192x512) (s₂ := S1x8192x512) (0 : Fin 3) _ _ _ (ix3 s r d) rfl rfl
      (ix3 (⟨0, Nat.one_pos⟩ : Fin 1) r d)
      (fun b hb => by match b with | ⟨0, _⟩ => exact absurd rfl hb | ⟨1, _⟩ => rfl | ⟨2, _⟩ => rfl)
      (by show 0 + 1 = s.val; omega)).trans ?_
    refine (broadcastInDim_apply (s := S8192x512) (t := S1x8192x512) ![1, 2] Facts₀.bcast_S8192x512_S1x8192x512_1_2 (ys m c)
      (ix3 (⟨0, Nat.one_pos⟩ : Fin 1) r d) (ix2 r d) (fun a => by match a with | ⟨0, _⟩ => rfl | ⟨1, _⟩ => rfl)).trans ?_
    unfold batch; rw [if_neg h0]

/-- Row j·256 + k of the flat table is centre j of class k. -/
theorem table_apply (c : Dev nD) (j : Fin 8) (k : Fin 256) (d : Fin 512) (p : Fin 2048) (hp : p.val = j.val * 256 + k.val) :
    (V m c main_v1 : S2048x512.Idx → EReal) (ix2 p d) = cen m c (ix3 k j d) := by
  rw [table_eq]
  refine (shapeCast_apply (s := S8x256x512) (t := S2048x512) _ Facts₀.shapeCasts_S8x256x512_S2048x512 (ix2 p d) (ix3 j k d) (by
    rw [Shape.rowMajor_val_three, Shape.rowMajor_val_two]
    show (j.val * 256 + k.val) * 512 + d.val = p.val * 512 + d.val
    rw [hp])).trans ?_
  exact transpose_apply (s := S256x8x512) (t := S8x256x512) [1, 0, 2] (cen m c) Facts₀.transposes_S256x8x512_S8x256x512_1_0_2 (ix3 j k d) (ix3 k j d)
    (fun b => by match b with | ⟨0, _⟩ => rfl | ⟨1, _⟩ => rfl | ⟨2, _⟩ => rfl)

end Cert.Rbf.Kernel

end
-- ==== Proof.Payload.lean ====
/-
  The kernel body's one stored value, read at an index.

  The body holds a block of 512 sample rows (as [1, 512, 512]) and the whole centre table laid out class-minor as
  [2048, 512]: row j·256 + k of the table is centre j of class k. It forms the 512 × 2048 array of Gaussians
  exp(−((‖x_r‖² − 2⟨x_r, c_m⟩) + ‖c_m‖²) / 2), regroups its columns as [512, 8, 256] (m = j·256 + k) and takes, over the
  middle axis, the sum S and the maximum M (from −∞); the entry stored at (r, k) is S / ((S + 8) − M·8). Hence the
  entry at (0, r, k) is `cell` of sample row r and the eight table rows j·256 + k, j = 0 … 7.

  Every stage that is not elementwise is read at coordinates in a lemma of its own: the rows' sums of squares, the
  contraction of the products, the Gaussian, the regrouping, and the sum and the maximum over a class. The last
  theorem chains them.
-/
import proofs.«150862_j85272280695307_1_alg».proof.Proof.Spec
import proofs.«150862_j85272280695307_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.Rbf.Body

open Idealize.ShloMosaic Idealize.ShloMosaic.ValueIdx Cert.KernelIdeal Cert.KernelIdeal.Gen

/-! ## The body's intermediate arrays, named -/

/-- The sample block with its leading unit axis dropped: 512 rows of 512 entries. -/
def rows (v0 : Vec Ideal S1x512x512 .f32) : FVec Ideal S512x512 .f32 :=
  shapeCast S512x512 v0 shapeCasts_S1x512x512_S512x512

/-- The centre table as the body holds it (a reshape to its own shape). -/
def table (v2 : Vec Ideal S2048x512 .f32) : FVec Ideal S2048x512 .f32 :=
  shapeCast S2048x512 v2 shapeCasts_S2048x512_S2048x512

/-- The squared norm of each sample row. -/
def rowSq (v0 : Vec Ideal S1x512x512 .f32) : FVec Ideal S512 .f32 :=
  multiReduction (F := Ideal) .add [1] S512 (mulf (rows v0) (rows v0)) 0x00000000#32 reduces_S512x512_S512 (.inl rfl) rfl

/-- The squared norm of each table row. -/
def tableSq (v2 : Vec Ideal S2048x512 .f32) : FVec Ideal S2048 .f32 :=
  multiReduction (F := Ideal) .add [1] S2048 (mulf (table v2) (table v2)) 0x00000000#32 reduces_S2048x512_S2048 (.inl rfl) rfl

/-- The inner products of every sample row with every table row (both operands contracted on their last axis). -/
def prods (v0 : Vec Ideal S1x512x512 .f32) (v2 : Vec Ideal S2048x512 .f32) : FVec Ideal S512x2048 .f32 :=
  matmul dot_S512x512_S2048x512_S512x2048_1_1_0_0_n_n none (truncf .bf16 (rows v0) bitsLt_bf16_f32) (truncf .bf16 (table v2) bitsLt_bf16_f32)
    (constant (F := Ideal) S512x2048 .f32 0x00000000#32)

/-- The sample rows' squared norms as a column, repeated along the 2048 table rows. -/
def rowSqCol (v0 : Vec Ideal S1x512x512 .f32) : FVec Ideal S512x2048 .f32 :=
  broadcastTo S512x2048 (shapeCast S512x1 (rowSq v0) shapeCasts_S512_S512x1) broadcasts_S512x1_S512x2048

/-- The table rows' squared norms as a row, repeated along the 512 sample rows. -/
def tableSqRow (v2 : Vec Ideal S2048x512 .f32) : FVec Ideal S512x2048 .f32 :=
  broadcastTo S512x2048 (shapeCast S1x2048 (tableSq v2) shapeCasts_S2048_S1x2048) broadcasts_S1x2048_S512x2048

/-- The elementwise stage: from the squared norms `A`, `C` and the inner products `P`, exp((0 − ((A − 2·P) + C)) / 2). -/
def gaussStage (A P C : FVec Ideal S512x2048 .f32) : FVec Ideal S512x2048 .f32 :=
  exp (divf (subf (broadcast S512x2048 (Scalar.ofBits (F := Ideal) .f32 0x00000000#32))
      (addf (subf A (mulf (broadcast S512x2048 (Scalar.ofBits (F := Ideal) .f32 0x40000000#32)) P)) C))
    (broadcast S512x2048 (Scalar.ofBits (F := Ideal) .f32 0x40000000#32)))

/-- The 512 × 2048 Gaussians. -/
def gaussians (v0 : Vec Ideal S1x512x512 .f32) (v2 : Vec Ideal S2048x512 .f32) : FVec Ideal S512x2048 .f32 :=
  gaussStage (rowSqCol v0) (prods v0 v2) (tableSqRow v2)

/-- The Gaussians with their 2048 columns regrouped as 8 centres by 256 classes. -/
def grouped (v0 : Vec Ideal S1x512x512 .f32) (v2 : Vec Ideal S2048x512 .f32) : FVec Ideal S512x8x256 .f32 :=
  shapeCast S512x8x256 (gaussians v0 v2) shapeCasts_S512x2048_S512x8x256

/-- The sum of a class's eight Gaussians. -/
def classSum (v0 : Vec Ideal S1x512x512 .f32) (v2 : Vec Ideal S2048x512 .f32) : FVec Ideal S512x256 .f32 :=
  multiReduction (F := Ideal) .add [1] S512x256 (grouped v0 v2) 0x00000000#32 reduces_S512x8x256_S512x256 (.inl rfl) rfl

/-- The maximum of a class's eight Gaussians, taken from −∞. -/
def classMax (v0 : Vec Ideal S1x512x512 .f32) (v2 : Vec Ideal S2048x512 .f32) : FVec Ideal S512x256 .f32 :=
  multiReduction (F := Ideal) .maximumf [1] S512x256 (grouped v0 v2) 0xFF800000#32 reduces_S512x8x256_S512x256 (.inl rfl) rfl

/-- The last elementwise stage: from the class sums `S` and maxima `M`, S / ((S + 8) − M·8). -/
def ratioStage (S M : FVec Ideal S512x256 .f32) : FVec Ideal S512x256 .f32 :=
  divf S (subf (addf S (broadcast S512x256 (Scalar.ofBits (F := Ideal) .f32 0x41000000#32)))
    (mulf M (broadcast S512x256 (Scalar.ofBits (F := Ideal) .f32 0x41000000#32))))

/-- The stored value is that ratio of the class sums and maxima, given a leading unit axis. -/
theorem payload_eq (v0 : Vec Ideal S1x512x512 .f32) (v2 : Vec Ideal S2048x512 .f32) :
    k0_pay1 (F := Ideal) v0 v2
      = shapeCast S1x512x256 (ratioStage (classSum v0 v2) (classMax v0 v2)) shapeCasts_S512x256_S1x512x256 := rfl

/-! ## The layout stages at coordinates -/

/-- Row r, entry d of the block without its unit axis is entry (0, r, d) of the block. -/
theorem rows_apply (v0 : Vec Ideal S1x512x512 .f32) (r d : Fin 512) : rows v0 (ix2 r d) = v0 (ix3 (0 : Fin 1) r d) := by
  unfold rows
  exact shapeCast_apply v0 shapeCasts_S1x512x512_S512x512 (ix2 r d) (ix3 (0 : Fin 1) r d) (by
    rw [Shape.rowMajor_val_three, Shape.rowMajor_val_two]
    show ((0 : Nat) * 512 + r.val) * 512 + d.val = r.val * 512 + d.val
    omega)

/-- The table's reshape to its own shape changes nothing. -/
theorem table_eq (v2 : Vec Ideal S2048x512 .f32) : table v2 = v2 := shapeCast_self v2 _

/-- In a sum over the entries of a row, the index over row r with entry d inserted is (r, d). -/
theorem lift_row {n : Nat} (h : Shape.Reduces ⟨2, ![n, 512]⟩ [1] ⟨1, ![n]⟩) (r : Fin n) (d : Fin 512) :
    h.lift (ix1 r) d = ix2 r d :=
  funext fun a => Fin.ext (by match a with | ⟨0, _⟩ => rfl | ⟨1, _⟩ => rfl)

/-- In a reduction over the centres of a class, the index over (r, k) with centre j inserted is (r, j, k). -/
theorem lift_class (r : Fin 512) (k : Fin 256) (j : Fin 8) :
    reduces_S512x8x256_S512x256.lift (ix2 r k) j = ix3 r j k :=
  funext fun a => Fin.ext (by match a with | ⟨0, _⟩ => rfl | ⟨1, _⟩ => rfl | ⟨2, _⟩ => rfl)

/-! ## The rows' sums of squares -/

theorem rowSq_apply (v0 : Vec Ideal S1x512x512 .f32) (r : Fin 512) :
    rowSq v0 (ix1 r) = sqNorm (fun d => v0 (ix3 (0 : Fin 1) r d)) := by
  unfold rowSq
  refine (Ideal.multiReduction_add_single _ _ reduces_S512x512_S512 _ _ (ix1 r)).trans ?_
  show ∑ d : Fin 512, rows v0 (reduces_S512x512_S512.lift (ix1 r) d) * rows v0 (reduces_S512x512_S512.lift (ix1 r) d)
      = ∑ d : Fin 512, v0 (ix3 (0 : Fin 1) r d) * v0 (ix3 (0 : Fin 1) r d)
  refine Finset.sum_congr rfl fun d _ => ?_
  rw [lift_row reduces_S512x512_S512 r d, rows_apply]

theorem tableSq_apply (v2 : Vec Ideal S2048x512 .f32) (m : Fin 2048) :
    tableSq v2 (ix1 m) = sqNorm (fun d => v2 (ix2 m d)) := by
  unfold tableSq
  refine (Ideal.multiReduction_add_single _ _ reduces_S2048x512_S2048 _ _ (ix1 m)).trans ?_
  show ∑ d : Fin 512, table v2 (reduces_S2048x512_S2048.lift (ix1 m) d) * table v2 (reduces_S2048x512_S2048.lift (ix1 m) d)
      = ∑ d : Fin 512, v2 (ix2 m d) * v2 (ix2 m d)
  refine Finset.sum_congr rfl fun d _ => ?_
  rw [lift_row reduces_S2048x512_S2048 m d, table_eq]

/-- The column of sample norms at (r, m) is sample row r's squared norm. -/
theorem rowSqCol_apply (v0 : Vec Ideal S1x512x512 .f32) (r : Fin 512) (m : Fin 2048) :
    rowSqCol v0 (ix2 r m) = sqNorm (fun d => v0 (ix3 (0 : Fin 1) r d)) := by
  unfold rowSqCol
  refine (broadcastTo_apply _ broadcasts_S512x1_S512x2048 (ix2 r m) (ix2 r (0 : Fin 1)) ?_).trans ?_
  · intro a
    match a with
    | ⟨0, _⟩ => show r.val = if (512 : Nat) = 1 then 0 else r.val; rw [if_neg (by decide)]
    | ⟨1, _⟩ => show (0 : Nat) = if (1 : Nat) = 1 then 0 else m.val; rw [if_pos rfl]
  · refine (shapeCast_apply (rowSq v0) shapeCasts_S512_S512x1 (ix2 r (0 : Fin 1)) (ix1 r) ?_).trans (rowSq_apply v0 r)
    rw [Shape.rowMajor_val_one, Shape.rowMajor_val_two]
    show r.val = r.val * 1 + 0
    omega

/-- The row of table norms at (r, m) is table row m's squared norm. -/
theorem tableSqRow_apply (v2 : Vec Ideal S2048x512 .f32) (r : Fin 512) (m : Fin 2048) :
    tableSqRow v2 (ix2 r m) = sqNorm (fun d => v2 (ix2 m d)) := by
  unfold tableSqRow
  refine (broadcastTo_apply _ broadcasts_S1x2048_S512x2048 (ix2 r m) (ix2 (0 : Fin 1) m) ?_).trans ?_
  · intro a
    match a with
    | ⟨0, _⟩ => show (0 : Nat) = if (1 : Nat) = 1 then 0 else r.val; rw [if_pos rfl]
    | ⟨1, _⟩ => show m.val = if (2048 : Nat) = 1 then 0 else m.val; rw [if_neg (by decide)]
  · refine (shapeCast_apply (tableSq v2) shapeCasts_S2048_S1x2048 (ix2 (0 : Fin 1) m) (ix1 m) ?_).trans (tableSq_apply v2 m)
    rw [Shape.rowMajor_val_one, Shape.rowMajor_val_two]
    show m.val = 0 * 2048 + m.val
    omega

/-! ## The products: sample rows against table rows, both contracted on their last axis -/

theorem lhs_dot_0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
theorem lhs_dot_1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q
theorem rhs_dot_0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
theorem rhs_dot_1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- The product array at (r, m) is the inner product of sample row r and table row m: the contraction index is one
    coordinate below 512, the narrowing of the operands is the identity, and the accumulator is zero. -/
theorem prods_apply (v0 : Vec Ideal S1x512x512 .f32) (v2 : Vec Ideal S2048x512 .f32) (r : Fin 512) (m : Fin 2048) :
    prods v0 v2 (ix2 r m) = inner (fun d => v0 (ix3 (0 : Fin 1) r d)) (fun d => v2 (ix2 m d)) := by
  unfold prods
  refine (Ideal.matmul_constant_zero_apply dot_S512x512_S2048x512_S512x2048_1_1_0_0_n_n none _ _ (ix2 r m)).trans ?_
  rw [← Equiv.sum_comp (contrEquiv1 dot_S512x512_S2048x512_S512x2048_1_1_0_0_n_n 512 rfl rfl).symm]
  show _ = ∑ d : Fin 512, v0 (ix3 (0 : Fin 1) r d) * v2 (ix2 m d)
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 r m) ((contrEquiv1 dot_S512x512_S2048x512_S512x2048_1_1_0_0_n_n 512 rfl rfl).symm k) = ix2 r k := funext fun a => Fin.ext (by
    match a with
    | ⟨0, _⟩ => exact lhs_dot_0 _ _
    | ⟨1, _⟩ => exact (lhs_dot_1 _ _).trans hk)
  have er : dot_S512x512_S2048x512_S512x2048_1_1_0_0_n_n.rhsIdx (ix2 r m) ((contrEquiv1 dot_S512x512_S2048x512_S512x2048_1_1_0_0_n_n 512 rfl rfl).symm k) = ix2 m k := funext fun a => Fin.ext (by
    match a with
    | ⟨0, _⟩ => exact rhs_dot_0 _ _
    | ⟨1, _⟩ => exact (rhs_dot_1 _ _).trans hk)
  rw [el, er]
  show rows v0 (ix2 r k) * table v2 (ix2 m k) = _
  rw [rows_apply, table_eq]

/-! ## The Gaussian -/

/-- The elementwise stage at an index: `0 − d` is `−d`. -/
theorem gaussStage_apply (A P C : FVec Ideal S512x2048 .f32) (i : S512x2048.Idx) :
    gaussStage A P C i = Ideal.exp (Ideal.div (-((A i - two * P i) + C i)) two) := by
  show Ideal.exp (Ideal.div (Ideal.ofBits .f32 0x00000000#32 - ((A i - two * P i) + C i)) two) = _
  rw [Ideal.ofBits_zero_f32, zero_sub]

/-- The Gaussian array at (r, m) is the Gaussian of sample row r and table row m. -/
theorem gaussians_apply (v0 : Vec Ideal S1x512x512 .f32) (v2 : Vec Ideal S2048x512 .f32) (r : Fin 512) (m : Fin 2048) :
    gaussians v0 v2 (ix2 r m) = gauss (fun d => v0 (ix3 (0 : Fin 1) r d)) (fun d => v2 (ix2 m d)) := by
  unfold gaussians
  rw [gaussStage_apply, rowSqCol_apply, prods_apply, tableSqRow_apply]
  rfl

/-! ## Regrouping the columns, and the reductions over a class -/

/-- Table row j·256 + k: centre j of class k. -/
abbrev centreRow (j : Fin 8) (k : Fin 256) : Fin 2048 :=
  ⟨j.val * 256 + k.val, by have := j.isLt; have := k.isLt; omega⟩

/-- The regrouped array at (r, j, k) is the Gaussian array at (r, j·256 + k): the same row-major position. -/
theorem grouped_apply (v0 : Vec Ideal S1x512x512 .f32) (v2 : Vec Ideal S2048x512 .f32) (r : Fin 512) (j : Fin 8) (k : Fin 256) :
    grouped v0 v2 (ix3 r j k) = gaussians v0 v2 (ix2 r (centreRow j k)) := by
  unfold grouped
  exact shapeCast_apply (gaussians v0 v2) shapeCasts_S512x2048_S512x8x256 (ix3 r j k) (ix2 r (centreRow j k)) (by
    rw [Shape.rowMajor_val_two, Shape.rowMajor_val_three]
    show r.val * 2048 + (j.val * 256 + k.val) = (r.val * 8 + j.val) * 256 + k.val
    omega)

theorem classSum_apply (v0 : Vec Ideal S1x512x512 .f32) (v2 : Vec Ideal S2048x512 .f32) (r : Fin 512) (k : Fin 256) :
    classSum v0 v2 (ix2 r k) = ∑ j : Fin 8, grouped v0 v2 (ix3 r j k) := by
  unfold classSum
  refine (Ideal.multiReduction_add_single _ _ reduces_S512x8x256_S512x256 _ _ (ix2 r k)).trans ?_
  show ∑ j : Fin 8, grouped v0 v2 (reduces_S512x8x256_S512x256.lift (ix2 r k) j) = _
  exact Finset.sum_congr rfl fun j _ => congrArg (grouped v0 v2) (lift_class r k j)

theorem classMax_apply (v0 : Vec Ideal S1x512x512 .f32) (v2 : Vec Ideal S2048x512 .f32) (r : Fin 512) (k : Fin 256) :
    classMax v0 v2 (ix2 r k) = (Finset.univ : Finset (Fin 8)).fold max negInf fun j => grouped v0 v2 (ix3 r j k) := by
  unfold classMax
  refine (Ideal.multiReduction_maximumf_single _ _ reduces_S512x8x256_S512x256 _ _ (ix2 r k)).trans ?_
  show (Finset.univ : Finset (Fin 8)).fold max negInf (fun j => grouped v0 v2 (reduces_S512x8x256_S512x256.lift (ix2 r k) j)) = _
  exact congrArg (fun f => (Finset.univ : Finset (Fin 8)).fold max negInf f)
    (funext fun j => congrArg (grouped v0 v2) (lift_class r k j))

/-! ## The stored entry -/

/-- The last elementwise stage at an index. -/
theorem ratioStage_apply (S M : FVec Ideal S512x256 .f32) (i : S512x256.Idx) :
    ratioStage S M i = Ideal.div (S i) ((S i + eight) - M i * eight) := rfl

/-- The body's stored value at (0, r, k) is `cell` of sample row r of the block and the eight table rows j·256 + k. -/
theorem payload_cell (v0 : Vec Ideal Cert.KernelIdeal.S1x512x512 .f32) (v2 : Vec Ideal Cert.KernelIdeal.S2048x512 .f32)
    (r : Fin 512) (k : Fin 256) :
    Cert.KernelIdeal.Gen.k0_pay1 (F := Ideal) v0 v2 (ix3 (0 : Fin 1) r k)
      = Cert.Rbf.cell (fun d => v0 (ix3 (0 : Fin 1) r d))
          (fun j d => v2 (ix2 (⟨j.val * 256 + k.val, by have := j.isLt; have := k.isLt; omega⟩ : Fin 2048) d)) := by
  have hg : ∀ j : Fin 8, grouped v0 v2 (ix3 r j k)
      = gauss (fun d => v0 (ix3 (0 : Fin 1) r d)) (fun d => v2 (ix2 (centreRow j k) d)) :=
    fun j => (grouped_apply v0 v2 r j k).trans (gaussians_apply v0 v2 r (centreRow j k))
  have hs : classSum v0 v2 (ix2 r k)
      = ∑ j : Fin 8, gauss (fun d => v0 (ix3 (0 : Fin 1) r d)) (fun d => v2 (ix2 (centreRow j k) d)) :=
    (classSum_apply v0 v2 r k).trans (Finset.sum_congr rfl fun j _ => hg j)
  have hm : classMax v0 v2 (ix2 r k)
      = (Finset.univ : Finset (Fin 8)).fold max negInf
          fun j => gauss (fun d => v0 (ix3 (0 : Fin 1) r d)) (fun d => v2 (ix2 (centreRow j k) d)) :=
    (classMax_apply v0 v2 r k).trans (congrArg (fun f => (Finset.univ : Finset (Fin 8)).fold max negInf f) (funext hg))
  refine (congrFun (payload_eq v0 v2) _).trans ?_
  refine (shapeCast_apply _ shapeCasts_S512x256_S1x512x256 (ix3 (0 : Fin 1) r k) (ix2 r k) ?_).trans ?_
  · rw [Shape.rowMajor_val_two, Shape.rowMajor_val_three]
    show r.val * 256 + k.val = ((0 : Nat) * 512 + r.val) * 256 + k.val
    omega
  · refine (ratioStage_apply _ _ _).trans ?_
    rw [hs, hm]
    unfold cell
    with_reducible rfl

end Cert.Rbf.Body

end
-- ==== Proof.Blocks.lean ====
/-
  The kernel's result array after the region, as one function of the arguments.

  The grid has 2 × 16 points: point (s, i) loads rows 512·i … 512·i + 511 of batch `s` of the stacked samples and
  the whole class-minor centre table, and stores a [1, 512, 256] block at (s, 512·i, 0) of the [2, 8192, 256] result.
  The stored block at (0, r, k) is `cell` of the loaded sample row r and the table rows j·256 + k (the body's payload,
  read at an index); those rows are row 512·i + r of batch `s` and centre j of class k. So each point writes back
  its block of ONE array, `stacked`: entry (s, b, k) is batch `s`'s logits at (b, k). The 32 blocks tile the result
  array (index (s, b, k) lies in the block of the point (s, b / 512)), hence the array ends holding `stacked`.
-/
import proofs.«150862_j85272280695307_1_alg».proof.Proof.Spec
import proofs.«150862_j85272280695307_1_alg».proof.Proof.HostIn
import proofs.«150862_j85272280695307_1_alg».proof.Proof.Payload
import proofs.«150862_j85272280695307_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.Rbf.Kernel

open Cert.KernelIdeal Cert.KernelIdeal.Gen

variable (m : (ℓ : Loc nD τ sig) → Buf (Elt Ideal) ℓ)

theorem offsets3 : (![0, 0, 0] : Fin 3 → Nat) = fun _ => 0 := funext fun a => by fin_cases a <;> rfl
theorem offsets2 : (![0, 0] : Fin 2 → Nat) = fun _ => 0 := funext fun a => by fin_cases a <;> rfl

/-- What the kernel's result array holds after the region: batch `s`'s logits at (s, b, k). -/
def stacked (c : Dev nD) : S2x8192x256.Idx → EReal := fun i =>
  logits (batch m c (i 0).val) (cen m c) (ix2 (⟨(i 1).val, (i 1).isLt⟩ : Fin 8192) (⟨(i 2).val, (i 2).isLt⟩ : Fin 256))

/-- The three windows' block indices over the grid of 2 × 16 points: the sample window moves with the result
    window (batch s, row block i), the centre table stays at its one block, and the last axis is never split. -/
theorem block_indices : ∀ t : Fin cfg0.N, win0_0.index t (0 : Fin 3) = win0_2.index t (0 : Fin 3)
    ∧ win0_0.index t (1 : Fin 3) = win0_2.index t (1 : Fin 3)
    ∧ win0_0.index t (2 : Fin 3) = 0
    ∧ win0_1.index t (0 : Fin 2) = 0
    ∧ win0_1.index t (1 : Fin 2) = 0
    ∧ win0_2.index t (2 : Fin 3) = 0
    ∧ win0_2.index t (0 : Fin 3) < 2 ∧ win0_2.index t (1 : Fin 3) < 16 :=
  (by decide +kernel : ∀ t : Fin grid0.N, _)

/-- Every (batch, row block) pair is some grid point's. -/
theorem block_onto : ∀ (q0 : Fin 2) (q1 : Fin 16), ∃ t : Fin cfg0.N, win0_2.index t = ![q0.val, q1.val, 0] :=
  (by decide +kernel : ∀ (q0 : Fin 2) (q1 : Fin 16), ∃ t : Fin grid0.N, win0_2.index t = ![q0.val, q1.val, 0])

/-- Row r of the sample block at a point is row (row block)·512 + r of that point's batch. -/
theorem sampleBlk_apply (c : Dev nD) (t : Fin cfg0.N) (r : Fin 512) (d : Fin 512) (s : Fin 2) (b : Fin 8192)
    (hs : s.val = win0_2.index t (0 : Fin 3)) (hb : b.val = win0_2.index t (1 : Fin 3) * 512 + r.val) :
    (iblk m c 0 t : Vec Ideal S1x512x512 .f32) (ix3 (0 : Fin 1) r d) = batch m c s.val (ix2 b d) := by
  obtain ⟨e0, e1, e2, -⟩ := block_indices t
  unfold iblk
  rw [View.read_apply]
  show V m c main_v4 _ = _
  rw [← stackedIn_apply m c s b d]
  congr 1
  funext a
  apply Fin.ext
  match a with
  | ⟨0, _⟩ => show win0_0.index t (0 : Fin 3) * 1 + 1 * 0 = s.val; omega
  | ⟨1, _⟩ => show win0_0.index t (1 : Fin 3) * 512 + 1 * r.val = b.val; omega
  | ⟨2, _⟩ => show win0_0.index t (2 : Fin 3) * 512 + 1 * d.val = d.val; omega

/-- The table block at every point is the whole flat table: row j·256 + k is centre j of class k. -/
theorem tableBlk_apply (c : Dev nD) (t : Fin cfg0.N) (j : Fin 8) (k : Fin 256) (d : Fin 512) (p : Fin 2048)
    (hp : p.val = j.val * 256 + k.val) :
    (iblk m c 1 t : Vec Ideal S2048x512 .f32) (ix2 p d) = cen m c (ix3 k j d) := by
  obtain ⟨-, -, -, e3, e4, -⟩ := block_indices t
  unfold iblk
  rw [View.read_apply]
  show V m c main_v1 _ = _
  rw [← table_apply m c j k d p hp]
  congr 1
  funext a
  apply Fin.ext
  match a with
  | ⟨0, _⟩ => show win0_1.index t (0 : Fin 2) * 2048 + 1 * p.val = p.val; omega
  | ⟨1, _⟩ => show win0_1.index t (1 : Fin 2) * 512 + 1 * d.val = d.val; omega

/-- The body's stored block at (0, r, k), when its two loaded blocks are rows of a batch and the flat table, is the
    batch's logits at (b, k). -/
theorem block_value (c : Dev nD) (x0 : Vec Ideal S1x512x512 .f32) (x1 : Vec Ideal S2048x512 .f32)
    (y : S1x512x256.Idx) (q : S2x8192x256.Idx) (r : Fin 512) (k : Fin 256) (s : Fin 2) (b : Fin 8192)
    (hy1 : (y 1).val = r.val) (hy2 : (y 2).val = k.val)
    (hq0 : (q 0).val = s.val) (hq1 : (q 1).val = b.val) (hq2 : (q 2).val = k.val)
    (hx : ∀ d : Fin 512, x0 (ix3 (0 : Fin 1) r d) = batch m c s.val (ix2 b d))
    (hc : ∀ (j : Fin 8) (d : Fin 512), x1 (ix2 (⟨j.val * 256 + k.val, by have := j.isLt; have := k.isLt; omega⟩ : Fin 2048) d) = cen m c (ix3 k j d)) :
    k0_pay1 (F := Ideal) x0 x1 y = stacked m c q := by
  have hy : y = ix3 (0 : Fin 1) r k := by
    funext a
    apply Fin.ext
    match a with
    | ⟨0, _⟩ => have h : (y 0).val < 1 := (y 0).isLt; show (y 0).val = 0; omega
    | ⟨1, _⟩ => exact hy1
    | ⟨2, _⟩ => exact hy2
  refine (congrArg (k0_pay1 (F := Ideal) x0 x1) hy).trans ?_
  refine (Cert.Rbf.Body.payload_cell x0 x1 r k).trans ?_
  unfold stacked logits
  have eb : (⟨(q 1).val, (q 1).isLt⟩ : Fin 8192) = b := Fin.ext hq1
  have ek : (⟨(q 2).val, (q 2).isLt⟩ : Fin 256) = k := Fin.ext hq2
  rw [eb, ek, hq0]
  exact congrArg₂ cell (funext fun d => hx d) (funext fun j => funext fun d => hc j d)

/-- What a grid point writes back is its block of `stacked`. -/
theorem flushed_eq (c : Dev nD) (t : Fin cfg0.N) :
    (dats m 0 c).flushed 2 t = ((cfg0.win 2).blk t).view.read (Elt Ideal) (stacked m c) := by
  show (cfg0.win 2).cut (grid0.coords t) ((dats m 0 c).after 2 t) = _
  rw [after0_2]
  unfold out0_2
  rw [View.canon_unit_zero offsets3]
  simp only [View.ld_unit_zero (S := S1x512x512) offsets3, View.ld_unit_zero (S := S2048x512) offsets2]
  obtain ⟨-, -, -, -, -, e5, e6, e7⟩ := block_indices t
  funext y
  show k0_pay1 (F := Ideal) (iblk m c 0 t) (iblk m c 1 t) y = stacked m c (((cfg0.win 2).blk t).view.emb y)
  have h0 : (y 0).val < 1 := (y 0).isLt
  have h1 : (y 1).val < 512 := (y 1).isLt
  have h2 : (y 2).val < 256 := (y 2).isLt
  refine block_value m c (iblk m c 0 t) (iblk m c 1 t) y _ ⟨(y 1).val, h1⟩ ⟨(y 2).val, h2⟩ ⟨win0_2.index t (0 : Fin 3), e6⟩
    ⟨win0_2.index t (1 : Fin 3) * 512 + (y 1).val, by omega⟩ rfl rfl ?_ ?_ ?_ ?_ ?_
  · show win0_2.index t (0 : Fin 3) * 1 + 1 * (y 0).val = win0_2.index t (0 : Fin 3); omega
  · show win0_2.index t (1 : Fin 3) * 512 + 1 * (y 1).val = win0_2.index t (1 : Fin 3) * 512 + (y 1).val; omega
  · show win0_2.index t (2 : Fin 3) * 256 + 1 * (y 2).val = (y 2).val; omega
  · intro d
    exact sampleBlk_apply m c t _ d _ _ rfl rfl
  · intro j d
    exact tableBlk_apply m c t j _ d _ rfl

/-- An index of the result array is in a point's block iff each coordinate is in the block's range on its axis. -/
theorem mem_blk (t : Fin cfg0.N) (i : S2x8192x256.Idx) :
    i ∈ ((cfg0.win 2).blk t).view.set ↔ ∀ a : Fin 3, win0_2.index t a * S1x512x256.size a ≤ (i a).val ∧ (i a).val < win0_2.index t a * S1x512x256.size a + S1x512x256.size a := by
  show i ∈ ((View.whole main_v5).slice (win0_2.rect t)).set ↔ _
  rw [View.set_slice_whole, Rect.mem_set_unit]
  exact Iff.rfl

/-- The blocks tile the result array: index (s, b, k) lies in the block of the point (s, b / 512). -/
theorem cover (i : S2x8192x256.Idx) : ∃ t : Fin cfg0.N, (cfg0.win 2).flush t = true ∧ i ∈ ((cfg0.win 2).blk t).view.set := by
  have hi0 : (i 0).val < 2 := (i 0).isLt
  have hi1 : (i 1).val < 8192 := (i 1).isLt
  have hi2 : (i 2).val < 256 := (i 2).isLt
  obtain ⟨t, ht⟩ := block_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 256 ≤ (i 2).val ∧ (i 2).val < win0_2.index t (2 : Fin 3) * 256 + 256; omega

/-- So after the region the kernel's result array is `stacked`. -/
theorem final (c : Dev nD) : (dats m 0 c).arrAt 2 cfg0.N = stacked m c :=
  (dats m 0 c).arrAt_eq_of_cover 2 (stacked m c) (fun t _ => flushed_eq m c t) cover

end Cert.Rbf.Kernel

end
-- ==== Proof.Tail.lean ====
/-
  The idealized kernel's run, read to the end.

  After the region the program slices the [2, 8192, 256] result array into its two batches and drops the unit leading
  axis of each slice: the first result is `stacked` at (0, ·, ·), the second at (1, ·, ·), that is the logits of the
  first and of the second batch of samples. The frame run names the result array after the region and every other
  buffer as the closing operations leave it; read through those operations it gives the run with both results at
  `logits` of the arguments, the arguments unchanged.
-/
import proofs.«150862_j85272280695307_1_alg».proof.Proof.Blocks
import Idealize.ShloMosaic.Lib.StableHlo.Run

set_option maxRecDepth 16384

noncomputable section

open Idealize.ShloMosaic Idealize.ShloMosaic.TcCoe Idealize.SL.Sem Idealize.ShloMosaic.ValueIdx

namespace Cert.Rbf.Kernel

open Cert.KernelIdeal Cert.KernelIdeal.Gen

variable (m : (ℓ : Loc nD τ sig) → Buf (Elt Ideal) ℓ)

/-! ## The host operations after the region: the two results are the two batches' slices of `stacked` -/

/-- Batch `s`'s slice of `stacked`, with the unit leading axis dropped, is that batch's logits. -/
theorem slice_stacked (c : Dev nD) (s : Fin 2) (off : Fin 3 → Nat) (hoff : off = ![s.val, 0, 0])
    (hs : S2x8192x256.Slices off S1x8192x256) :
    shapeCast S8192x256 (extractStridedSlice S1x8192x256 off (stacked m c) hs) Facts₀.shapeCasts_S1x8192x256_S8192x256
      = logits (batch m c s.val) (cen m c) := by
  subst hoff
  funext i
  obtain ⟨b, k, rfl⟩ : ∃ (b : Fin 8192) (k : Fin 256), i = ix2 b k := ⟨i 0, i 1, eq_ix2 i⟩
  refine (shapeCast_apply (s := S1x8192x256) (t := S8192x256) _ Facts₀.shapeCasts_S1x8192x256_S8192x256 (ix2 b k) (ix3 (0 : Fin 1) b k) (by
    rw [Shape.rowMajor_val_three, Shape.rowMajor_val_two]
    show (0 * 8192 + b.val) * 256 + k.val = b.val * 256 + k.val
    omega)).trans ?_
  refine (extractStridedSlice_apply (s := S2x8192x256) (t := S1x8192x256) ![s.val, 0, 0] (stacked m c) hs (ix3 (0 : Fin 1) b k) (ix3 s b k)
    (fun a => by match a with
      | ⟨0, _⟩ => show s.val = s.val + 0; omega
      | ⟨1, _⟩ => show b.val = 0 + b.val; omega
      | ⟨2, _⟩ => show k.val = 0 + k.val; omega)).trans ?_
  rfl

/-- The first result the program returns is the first batch's logits. -/
theorem tail_first (c : Dev nD) :
    Pipeline.afterTail₀ cfgs (dats m) 0 (V0 m) [hostOps1] c main_v7 = logits (xs m c) (cen m c) := by
  unfold Pipeline.afterTail₀
  show StableHlo.after hostOps1 _ (Proc.devRef .tc main_v7) = _
  after_results
  have hA : Pipeline.withArrays (cfgs 0).spec c (V0 m c) (fun w => (dats m 0 c).arrAt w (cfgs 0).N) (Proc.devRef .tc main_v5) = stacked m c :=
    (Pipeline.withArrays_arr spec0 launch0.win.arr_inj c _ _ 2).trans (final m c)
  show shapeCast S8192x256 (extractStridedSlice S1x8192x256 ![0, 0, 0]
    (Pipeline.withArrays (cfgs 0).spec c (V0 m c) (fun w => (dats m 0 c).arrAt w (cfgs 0).N) (Proc.devRef .tc main_v5))
    Facts₀.slices_S2x8192x256_S1x8192x256_0_0_0) Facts₀.shapeCasts_S1x8192x256_S8192x256 = _
  rw [hA]
  refine (slice_stacked m c (0 : Fin 2) _ rfl _).trans ?_
  show logits (if (0 : Nat) = 0 then xs m c else ys m c) (cen m c) = _
  rw [if_pos rfl]

/-- The second result the program returns is the second batch's logits. -/
theorem tail_second (c : Dev nD) :
    Pipeline.afterTail₀ cfgs (dats m) 0 (V0 m) [hostOps1] c main_v9 = logits (ys m c) (cen m c) := by
  unfold Pipeline.afterTail₀
  show StableHlo.after hostOps1 _ (Proc.devRef .tc main_v9) = _
  after_results
  have hA : Pipeline.withArrays (cfgs 0).spec c (V0 m c) (fun w => (dats m 0 c).arrAt w (cfgs 0).N) (Proc.devRef .tc main_v5) = stacked m c :=
    (Pipeline.withArrays_arr spec0 launch0.win.arr_inj c _ _ 2).trans (final m c)
  show shapeCast S8192x256 (extractStridedSlice S1x8192x256 ![1, 0, 0]
    (Pipeline.withArrays (cfgs 0).spec c (V0 m c) (fun w => (dats m 0 c).arrAt w (cfgs 0).N) (Proc.devRef .tc main_v5))
    Facts₀.slices_S2x8192x256_S1x8192x256_1_0_0) Facts₀.shapeCasts_S1x8192x256_S8192x256 = _
  rw [hA]
  refine (slice_stacked m c (1 : Fin 2) _ rfl _).trans ?_
  show logits (if (1 : Nat) = 0 then xs m c else ys m c) (cen m c) = _
  rw [if_neg Nat.one_ne_zero]

/-- The idealized kernel's run, read: both results at `logits` of their batch and the centre table, the arguments
    unchanged. -/
theorem run (ρ : Dev nD → PrngReg) : θ_run defs (onTc (τ := τ) (main (F := Ideal))) ⟨m, fun _ => 0, ρ⟩ fun r => ∀ c : Dev nD,
      r.2.mem ((c : Thread nD τ).loc main_v7) = logits (xs m c) (cen m c)
      ∧ r.2.mem ((c : Thread nD τ).loc main_v9) = logits (ys m c) (cen m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v7 (Pipeline.mem_restRefs_of main_v7 (by decide) (by decide))).trans (tail_first m c),
      ((h c).2 main_v9 (Pipeline.mem_restRefs_of main_v9 (by decide) (by decide))).trans (tail_second m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Rbf.Kernel

end
-- ==== Proof.RefLogits.lean ====
/-
  The reference's two results are the specification's `logits`.

  The reference flattens the centres [256, 8, 512] to [2048, 512]: row k·8 + j of the flat array is centre j of
  class k. For a sample row b and a flat row r it forms, entry by entry,

      ‖x_b‖² − 2·⟨x_b, c_r⟩ + ‖c_r‖²       (the two squared norms as sums of squares from the zero word, the inner
                                             product as a contraction over the 512 coordinates),

  negates it, divides by 2 and exponentiates: the Gaussian of the squared distance. The [8192, 2048] array of
  Gaussians is then regrouped to [8192, 256, 8], entry (b, k, j) being column k·8 + j of row b, and over the last
  axis the eight Gaussians of a class are summed (from the zero word) and maximised (from −∞). The result at (b, k)
  is S / ((S + 8) − M·8). Each stage is read here at coordinates and identified with the specification's term.
  The second result is the same computation on the second batch of samples.
-/
import proofs.«150862_j85272280695307_1_alg».proof.Proof.Spec
import proofs.«150862_j85272280695307_1_alg».proof.Proof.Gen.ReferenceIdeal.Read

noncomputable section

open scoped BigOperators

namespace Cert.Rbf.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The flat row that holds centre `j` of class `k`: k·8 + j. -/
abbrev row (k : Fin 256) (j : Fin 8) : Fin 2048 :=
  ⟨k.val * 8 + j.val, by have hk := k.isLt; have hj := j.isLt; omega⟩

/-! ## Where each layout stage reads -/

/-- Entry (k·8 + j, d) of the flattened centres is entry (k, j, d) of the centres. -/
theorem flat_centre (k : Fin 256) (j : Fin 8) (d : Fin 512) : idx_main_v0 (ix2 (row k j) d) = ix3 k j d := by
  have hk := k.isLt; have hj := j.isLt; have hd := d.isLt
  funext a
  match a with
  | ⟨0, _⟩ => exact Fin.ext (by show ((k.val * 8 + j.val) * 512 + d.val) / 4096 = k.val; omega)
  | ⟨1, _⟩ => exact Fin.ext (by show ((k.val * 8 + j.val) * 512 + d.val) / 512 % 8 = j.val; omega)
  | ⟨2, _⟩ => exact Fin.ext (by show ((k.val * 8 + j.val) * 512 + d.val) % 512 = d.val; omega)

/-- The sample's squared norm, broadcast along the 2048 columns, sums over row `b` of the samples. -/
theorem sample_sq_idx (b : Fin 8192) (r : Fin 2048) (d : Fin 512) :
    idx_main_v2 (idx_main_v3 (idx_main_v10 (ix2 b r))) d = ix2 b d := by
  funext a
  match a with
  | ⟨0, _⟩ => rfl
  | ⟨1, _⟩ => rfl

/-- The contraction's left factor at (b, r), coordinate `d`, is entry (b, d) of the samples. -/
theorem dot_left_idx (b : Fin 8192) (r : Fin 2048) (d : Fin 512) : lidx_main_v7 (ix2 b r) d = ix2 b d := by
  funext a
  match a with
  | ⟨0, _⟩ => rfl
  | ⟨1, _⟩ => rfl

/-- The contraction's right factor at (b, r), coordinate `d`, is entry (r, d) of the flattened centres (the
    transpose read back). -/
theorem dot_right_idx (b : Fin 8192) (r : Fin 2048) (d : Fin 512) :
    idx_main_v6 (ridx_main_v7 (ix2 b r) d) = ix2 r d := by
  funext a
  match a with
  | ⟨0, _⟩ => rfl
  | ⟨1, _⟩ => rfl

/-- The centre's squared norm, broadcast down the 8192 rows, sums over flat row `r` of the centres. -/
theorem centre_sq_idx (b : Fin 8192) (r : Fin 2048) (d : Fin 512) :
    idx_main_v5 (idx_main_v12 (idx_main_v13 (ix2 b r))) d = ix2 r d := by
  funext a
  match a with
  | ⟨0, _⟩ => rfl
  | ⟨1, _⟩ => rfl

/-- Entry (b, k, j) of the regrouped Gaussians is entry (b, k·8 + j) of the [8192, 2048] array. -/
theorem regroup_idx (b : Fin 8192) (k : Fin 256) (j : Fin 8) : idx_main_v19 (ix3 b k j) = ix2 b (row k j) := by
  have hb := b.isLt; have hk := k.isLt; have hj := j.isLt
  funext a
  match a with
  | ⟨0, _⟩ => exact Fin.ext (by show ((b.val * 256 + k.val) * 8 + j.val) / 2048 = b.val; omega)
  | ⟨1, _⟩ => exact Fin.ext (by show ((b.val * 256 + k.val) * 8 + j.val) % 2048 = k.val * 8 + j.val; omega)

/-- The sum over a class's eight centres at (b, k) runs over the entries (b, k, j). -/
theorem class_sum_idx (b : Fin 8192) (k : Fin 256) (j : Fin 8) : idx_main_v20 (ix2 b k) j = ix3 b k j := by
  funext a
  match a with
  | ⟨0, _⟩ => rfl
  | ⟨1, _⟩ => rfl
  | ⟨2, _⟩ => rfl

/-! ## The three sums of the expanded squared distance -/

/-- ‖x_b‖², as the reference forms it: the sum of squares over row `b`, from the zero word. -/
theorem sample_sq (x : (⟨S8192x512, .f32⟩ : BufTy).Contents (Elt Ideal)) (b : Fin 8192) (r : Fin 2048) :
    val_main_v10 (F := Ideal) x (ix2 b r) = sqNorm (fun d => x (ix2 b d)) := by
  rw [val_main_v10_apply, val_main_v3_apply, val_main_v2_apply, val_main_cst_apply]
  simp only [val_main_v1_apply, sample_sq_idx, Ideal.mulf_def, Ideal.ofBits_def, Ideal.ofBits_zero_f32, zero_add]
  rfl

/-- ‖c‖² for the centre in flat row k·8 + j: the sum of squares over that row, from the zero word. -/
theorem centre_sq (cen : (⟨S256x8x512, .f32⟩ : BufTy).Contents (Elt Ideal)) (b : Fin 8192) (k : Fin 256) (j : Fin 8) :
    val_main_v13 (F := Ideal) cen (ix2 b (row k j)) = sqNorm (fun d => cen (ix3 k j d)) := by
  rw [val_main_v13_apply, val_main_v12_apply, val_main_v5_apply, val_main_cst_0_apply]
  simp only [val_main_v4_apply, val_main_v0_apply, centre_sq_idx, flat_centre, Ideal.mulf_def, Ideal.ofBits_def,
    Ideal.ofBits_zero_f32, zero_add]
  rfl

/-- ⟨x_b, c⟩ for the centre in flat row k·8 + j: the contraction over the 512 coordinates. -/
theorem sample_dot_centre (x : (⟨S8192x512, .f32⟩ : BufTy).Contents (Elt Ideal)) (cen : (⟨S256x8x512, .f32⟩ : BufTy).Contents (Elt Ideal)) (b : Fin 8192) (k : Fin 256) (j : Fin 8) :
    val_main_v7 (F := Ideal) x cen (ix2 b (row k j)) = inner (fun d => x (ix2 b d)) (fun d => cen (ix3 k j d)) := by
  rw [val_main_v7_apply]
  simp only [val_main_v6_apply, val_main_v0_apply, dot_left_idx, dot_right_idx, flat_centre]
  rfl

/-! ## The Gaussian, and a class's sum and maximum -/

/-- Entry (b, k·8 + j) of the exponentials is the Gaussian of sample row `b` and centre `j` of class `k`. -/
theorem gauss_flat (x : (⟨S8192x512, .f32⟩ : BufTy).Contents (Elt Ideal)) (cen : (⟨S256x8x512, .f32⟩ : BufTy).Contents (Elt Ideal)) (b : Fin 8192) (k : Fin 256) (j : Fin 8) :
    val_main_v18 (F := Ideal) x cen (ix2 b (row k j)) = gauss (fun d => x (ix2 b d)) (fun d => cen (ix3 k j d)) := by
  rw [val_main_v18_apply, val_main_v17_apply, val_main_v15_apply, val_main_v14_apply, val_main_v11_apply,
    val_main_v9_apply, val_main_v8_apply, val_main_v16_apply, val_main_cst_1_apply, val_main_cst_2_apply,
    sample_sq, centre_sq, sample_dot_centre]
  simp only [Ideal.hostUnary_exp_def, Ideal.hostDivf_def, Ideal.hostNegf_def, Ideal.negf_def, Ideal.addf_def,
    Ideal.subf_def, Ideal.mulf_def, Ideal.ofBits_def]
  rfl

/-- Entry (b, k, j) of the regrouped array is that same Gaussian. -/
theorem gauss_grouped (x : (⟨S8192x512, .f32⟩ : BufTy).Contents (Elt Ideal)) (cen : (⟨S256x8x512, .f32⟩ : BufTy).Contents (Elt Ideal)) (b : Fin 8192) (k : Fin 256) (j : Fin 8) :
    val_main_v19 (F := Ideal) x cen (ix3 b k j) = gauss (fun d => x (ix2 b d)) (fun d => cen (ix3 k j d)) := by
  rw [val_main_v19_apply, regroup_idx, gauss_flat]

/-- The sum over a class's eight Gaussians, from the zero word. -/
theorem class_sum (x : (⟨S8192x512, .f32⟩ : BufTy).Contents (Elt Ideal)) (cen : (⟨S256x8x512, .f32⟩ : BufTy).Contents (Elt Ideal)) (b : Fin 8192) (k : Fin 256) :
    val_main_v20 (F := Ideal) x cen (ix2 b k) = ∑ j : Fin 8, gauss (fun d => x (ix2 b d)) (fun d => cen (ix3 k j d)) := by
  rw [val_main_v20_apply, val_main_cst_3_apply]
  simp only [class_sum_idx, gauss_grouped, Ideal.ofBits_def, Ideal.ofBits_zero_f32, zero_add]

/-- The reduced index (b, k) with coordinate `j` put back on the last axis is (b, k, j). -/
theorem lift_grouped (h : S8192x256x8.Reduces [2] S8192x256) (b : Fin 8192) (k : Fin 256)
    (j : Fin (S8192x256x8.size 2)) : h.lift (ix2 b k) j = ix3 b k (⟨j.val, j.isLt⟩ : Fin 8) := by
  funext c; apply Fin.ext
  fin_cases c <;> rfl

/-- The maximum over a class's eight Gaussians, taken from −∞. -/
theorem class_max (x : (⟨S8192x512, .f32⟩ : BufTy).Contents (Elt Ideal)) (cen : (⟨S256x8x512, .f32⟩ : BufTy).Contents (Elt Ideal)) (b : Fin 8192) (k : Fin 256) :
    val_main_v21 (F := Ideal) x cen (ix2 b k)
      = (Finset.univ : Finset (Fin 8)).fold max negInf fun j => gauss (fun d => x (ix2 b d)) (fun d => cen (ix3 k j d)) := by
  have h : S8192x256x8.Reduces [2] S8192x256 := by decide
  unfold val_main_v21
  rw [Host.reduce_eq_fold_single FloatOps.maximumf _ _ reducesTo_S8192x256x8_S8192x256_d2 h h_S_]
  have hf : (val_main_v19 (F := Ideal) x cen ∘ h.lift (ix2 b k))
      = fun j : Fin 8 => gauss (fun d => x (ix2 b d)) (fun d => cen (ix3 k j d)) :=
    funext fun j => (congrArg (val_main_v19 (F := Ideal) x cen) (lift_grouped h b k j)).trans (gauss_grouped x cen b k _)
  rw [hf]
  rfl

/-! ## The two results -/

theorem ref_first (x : (⟨Cert.ReferenceIdeal.S8192x512, .f32⟩ : BufTy).Contents (Elt Ideal))
    (cen : (⟨Cert.ReferenceIdeal.S256x8x512, .f32⟩ : BufTy).Contents (Elt Ideal)) :
    Cert.ReferenceIdeal.Read.val_main_v27 (F := Ideal) x cen = Cert.Rbf.logits x cen := by
  funext i
  obtain ⟨b, k, rfl⟩ : ∃ (b : Fin 8192) (k : Fin 256), i = ix2 b k := ⟨i 0, i 1, eq_ix2 i⟩
  rw [val_main_v27_apply, val_main_v26_apply, val_main_v23_apply, val_main_v25_apply, val_main_v22_apply,
    val_main_v24_apply, val_main_cst_5_apply, val_main_cst_6_apply, class_sum, class_max]
  simp only [Ideal.hostDivf_def, Ideal.subf_def, Ideal.addf_def, Ideal.mulf_def, Ideal.ofBits_def]
  rfl

/-- The second result runs the same operations on the second batch of samples. -/
theorem ref_second (x : (⟨Cert.ReferenceIdeal.S8192x512, .f32⟩ : BufTy).Contents (Elt Ideal))
    (cen : (⟨Cert.ReferenceIdeal.S256x8x512, .f32⟩ : BufTy).Contents (Elt Ideal)) :
    Cert.ReferenceIdeal.Read.val_main_v55 (F := Ideal) x cen = Cert.Rbf.logits x cen :=
  (show val_main_v55 (F := Ideal) x cen = val_main_v27 (F := Ideal) x cen from rfl).trans (ref_first x cen)

end Cert.Rbf.Ref

end
-- ==== Proof.lean ====
/-
  The kernel and its reference compute one function, and all three programs run to the end leaving their arguments
  as launched.

  For two batches of samples x, y : [8192, 512] and a table of centres [256, 8, 512] (eight per class) both programs
  return, per batch, the array whose entry (b, k) is S / ((S + 8) − M·8), where S and M are the sum and the maximum
  (from −∞) over class k's eight centres c of the Gaussian exp(−((‖x_b‖² − 2⟨x_b, c⟩) + ‖c‖²) / 2) (Proof/Spec.lean,
  `logits`). The kernel stacks the two batches, lays the centre table out class-minor (row j·256 + k is centre j of
  class k), and at each of 2 × 16 grid points takes 512 sample rows against the whole table: the products summed on the
  matrix unit from values narrowed to bfloat16, which over the extended reals are the values themselves, the
  Gaussians regrouped as [512, 8, 256] and reduced over the middle axis. The reference flattens the table class-major
  (row k·8 + j), regroups its Gaussians as [8192, 256, 8] and reduces over the last axis. Read index by index the two
  are the same sums and the same maximum over the same eight centres in the same order, so no law of the extended
  reals beyond 0 − a = −a and 0 + a = a is used, and the inputs' finiteness is never opened.

  Proof/Payload.lean reads the kernel body's stored value at an index; Proof/HostIn.lean the kernel's two input arrays
  at an index; Proof/Blocks.lean gives the result array after the region from the blocks the points write back;
  Proof/Tail.lean reads the run through the slices that follow; Proof/RefLogits.lean reads the reference's stages.
  The frames of the two kernel programs are the generated ones; the reference's frame is its generated run with the
  results dropped. The idealization rewrote nothing, so there is nothing to preserve.
-/
import proofs.«150862_j85272280695307_1_alg».proof.Defs
import proofs.«150862_j85272280695307_1_alg».proof.Proof.Gen.Kernel
import proofs.«150862_j85272280695307_1_alg».proof.Proof.Gen.Kernel.Skeleton
import proofs.«150862_j85272280695307_1_alg».proof.Proof.Gen.Kernel.Launch
import proofs.«150862_j85272280695307_1_alg».proof.Proof.Gen.Kernel.Points
import proofs.«150862_j85272280695307_1_alg».proof.Proof.Gen.Kernel.Frame
import proofs.«150862_j85272280695307_1_alg».proof.Proof.Gen.KernelIdeal
import proofs.«150862_j85272280695307_1_alg».proof.Proof.Gen.KernelIdeal.Skeleton
import proofs.«150862_j85272280695307_1_alg».proof.Proof.Gen.KernelIdeal.Launch
import proofs.«150862_j85272280695307_1_alg».proof.Proof.Gen.KernelIdeal.Points
import proofs.«150862_j85272280695307_1_alg».proof.Proof.Gen.KernelIdeal.Frame
import proofs.«150862_j85272280695307_1_alg».proof.Proof.Gen.ReferenceIdeal
import proofs.«150862_j85272280695307_1_alg».proof.Proof.Gen.Pre_finite_inputs
import proofs.«150862_j85272280695307_1_alg».proof.Proof.Gen.ReferenceIdeal.Run
import proofs.«150862_j85272280695307_1_alg».proof.Proof.Gen.ReferenceIdeal.Read
import proofs.«150862_j85272280695307_1_alg».proof.Proof.Tail
import proofs.«150862_j85272280695307_1_alg».proof.Proof.RefLogits
import Idealize.ShloMosaic.Adequacy
import Idealize.ShloMosaic.Init

noncomputable section

namespace Cert.Proof

open Idealize.ShloMosaic Idealize.SL.Sem

/-- The kernel as printed runs to the end with its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference has no kernel: its run, with the results dropped, is its frame. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with, per batch, `logits` of the batch and the centre table: the kernel by its run read through
    the blocks and the closing slices, the reference by its stages read at an index. -/
theorem algebraic : Cert.algebraic_KernelIdeal_ReferenceIdeal := by
  intro m ρ m' ρ' _ hagree
  refine ⟨fun c => Cert.Rbf.logits (Cert.Rbf.Kernel.xs m c) (Cert.Rbf.Kernel.cen m c),
    fun c => Cert.Rbf.logits (Cert.Rbf.Kernel.ys m c) (Cert.Rbf.Kernel.cen m c), Cert.Rbf.Kernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v27_eq, Cert.Rbf.Ref.ref_first, (hagree c).1, (hagree c).2.2]
  · rw [Cert.ReferenceIdeal.Read.val_main_v55_eq, Cert.Rbf.Ref.ref_second, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
